-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩

class Facts : Prop where
  bcast_S_S36864x128 : S_.BroadcastsInDim S36864x128 (![] : Fin 0 → Fin S36864x128.rank)
  reducesTo_S36864x128_S_d0_1 : S36864x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S36864x128 .f32) (main_arg1 : FVec F S4096x32768 .f32) (main_arg2 : FVec F S256x128 .f32) (main_arg3 : IVec S4096 32) (main_arg4 : IVec S32768 32) : IVec S_ 1 :=
  let main_v0 : FVec F S36864x128 .f32 := Host.absf main_arg0
  let main_cst : FVec F S_ .f32 := constant S_ .f32 0x7F800000#32
  let main_v1 : FVec F S36864x128 .f32 := broadcastInDim S36864x128 ![] bcast_S_S36864x128 main_cst
  let main_v2 : IVec S36864x128 1 := cmpf .olt main_v0 main_v1
  let main_c : IVec S_ 1 := constantI S_ 1 1#1
  let main_v3 : IVec S_ 1 := (fun x v => Host.reduce IntOp.andi x v reducesTo_S36864x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S32768x1 : Shape := ⟨2, ![32768, 1]⟩
abbrev S32768x128 : Shape := ⟨2, ![32768, 128]⟩
abbrev S512x4096 : Shape := ⟨2, ![512, 4096]⟩
abbrev S512x128 : Shape := ⟨2, ![512, 128]⟩
abbrev S512x256 : Shape := ⟨2, ![512, 256]⟩

abbrev nBuf : Space → Nat
  | .hbm => 52
  | .vmem => 10
  | .smem => 0
  | _ => 0

abbrev bufTy : (tb : Table) → Fin (tcTables nBuf tb) → BufTy
  | .hbm, ⟨0, _⟩ => ⟨S36864x128, .f32⟩
  | .hbm, ⟨1, _⟩ => ⟨S4096x32768, .f32⟩
  | .hbm, ⟨2, _⟩ => ⟨S256x128, .f32⟩
  | .hbm, ⟨3, _⟩ => ⟨S4096, .i32⟩
  | .hbm, ⟨4, _⟩ => ⟨S32768, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x128, .f32⟩
  | .hbm, ⟨47, _⟩ => ⟨S32768x128, .i1⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S4096x128, .f32⟩
  | .local _ .vmem, ⟨4, _⟩ => ⟨S512x128, .f32⟩
  | .local _ .vmem, ⟨5, _⟩ => ⟨S512x128, .f32⟩
  | .local _ .vmem, ⟨6, _⟩ => ⟨S256x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S36864x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x128_0 : S32768.BroadcastsInDim S32768x128 (![0] : Fin 1 → Fin S32768x128.rank)
  bcast_S_S32768x128 : S_.BroadcastsInDim S32768x128 (![] : Fin 0 → Fin S32768x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S512x128_S512x128_S512x256_d1 : Shape.Concatenates [S512x128, S512x128] S512x256 1
  inb_S256x128_S256x128_0_0 : ∀ a, (![0, 0] : Fin 2 → Nat) a + S256x128.size a ≤ S256x128.size a
  h_S256x128 : 0 < S256x128.numel
  gather_S36864x128_S4096x1_S4096x128_1_0_n_n_0_1_1128_wf : GatherDims.WF S36864x128 S4096x1 S4096x128 [1] [0] [] [0] [] 1 ![1, 128]
  gather_S36864x128_S32768x1_S32768x128_1_0_n_n_0_1_1128_wf : GatherDims.WF S36864x128 S32768x1 S32768x128 [1] [0] [] [0] [] 1 ![1, 128]
  dot_S512x4096_S4096x128_S512x128_1_0_0_1_n_n_wf : DotDims.WF S512x4096 S4096x128 S512x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x32768.size a
  hwx0_0 : ∀ i : grid0.Coords, EltTy.bits .f32 = 32 ∨ (Rect.block (s := S4096x32768) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .f32 = 32 ∨ (Rect.block (s := S32768x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def gather_S36864x128_S4096x1_S4096x128_1_0_n_n_0_1_1128 : GatherDims S36864x128 S4096x1 S4096x128 where
  offsetDims := [1]
  collapsedSliceDims := [0]
  operandBatchingDims := []
  startIndicesBatchingDims := []
  startIndexMap := [0]
  indexVectorDim := 1
  sliceSizes := ![1, 128]
  wf := gather_S36864x128_S4096x1_S4096x128_1_0_n_n_0_1_1128_wf
def gather_S36864x128_S32768x1_S32768x128_1_0_n_n_0_1_1128 : GatherDims S36864x128 S32768x1 S32768x128 where
  offsetDims := [1]
  collapsedSliceDims := [0]
  operandBatchingDims := []
  startIndicesBatchingDims := []
  startIndexMap := [0]
  indexVectorDim := 1
  sliceSizes := ![1, 128]
  wf := gather_S36864x128_S32768x1_S32768x128_1_0_n_n_0_1_1128_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S32768x1 : Shape := ⟨2, ![32768, 1]⟩
abbrev S32768x128 : Shape := ⟨2, ![32768, 128]⟩
abbrev S4096x256 : Shape := ⟨2, ![4096, 256]⟩

abbrev nBuf : Space → Nat
  | .hbm => 57
  | .vmem => 0
  | .smem => 0
  | _ => 0

abbrev bufTy : (tb : Table) → Fin (tcTables nBuf tb) → BufTy
  | .hbm, ⟨0, _⟩ => ⟨S36864x128, .f32⟩
  | .hbm, ⟨1, _⟩ => ⟨S4096x32768, .f32⟩
  | .hbm, ⟨2, _⟩ => ⟨S256x128, .f32⟩
  | .hbm, ⟨3, _⟩ => ⟨S4096, .i32⟩
  | .hbm, ⟨4, _⟩ => ⟨S32768, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x128, .f32⟩
  | .hbm, ⟨47, _⟩ => ⟨S32768x128, .i1⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S4096x128, .f32⟩
  | .hbm, ⟨52, _⟩ => ⟨S4096x256, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | _, _ => ⟨S36864x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_call2_cst : Ref sig .tc := ⟨.hbm, 54, rfl⟩
abbrev main_call2_v0 : Ref sig .tc := ⟨.hbm, 55, rfl⟩
abbrev main_v5 : Ref sig .tc := ⟨.hbm, 56, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x128_0 : S32768.BroadcastsInDim S32768x128 (![0] : Fin 1 → Fin S32768x128.rank)
  bcast_S_S32768x128 : S_.BroadcastsInDim S32768x128 (![] : Fin 0 → Fin S32768x128.rank)
  concatenates_S4096x128_S4096x128_S4096x256_d1 : Shape.Concatenates [S4096x128, S4096x128] S4096x256 1
  gather_S36864x128_S4096x1_S4096x128_1_0_n_n_0_1_1128_wf : GatherDims.WF S36864x128 S4096x1 S4096x128 [1] [0] [] [0] [] 1 ![1, 128]
  gather_S36864x128_S32768x1_S32768x128_1_0_n_n_0_1_1128_wf : GatherDims.WF S36864x128 S32768x1 S32768x128 [1] [0] [] [0] [] 1 ![1, 128]
  dot_S4096x32768_S32768x128_S4096x128_1_0_0_1_n_n_wf : DotDims.WF S4096x32768 S32768x128 S4096x128 [1] [0] [0] [1] [] []
  dot_S4096x256_S256x128_S4096x128_1_0_0_1_n_n_wf : DotDims.WF S4096x256 S256x128 S4096x128 [1] [0] [0] [1] [] []

variable [Facts₀]

def gather_S36864x128_S4096x1_S4096x128_1_0_n_n_0_1_1128 : GatherDims S36864x128 S4096x1 S4096x128 where
  offsetDims := [1]
  collapsedSliceDims := [0]
  operandBatchingDims := []
  startIndicesBatchingDims := []
  startIndexMap := [0]
  indexVectorDim := 1
  sliceSizes := ![1, 128]
  wf := gather_S36864x128_S4096x1_S4096x128_1_0_n_n_0_1_1128_wf
def gather_S36864x128_S32768x1_S32768x128_1_0_n_n_0_1_1128 : GatherDims S36864x128 S32768x1 S32768x128 where
  offsetDims := [1]
  collapsedSliceDims := [0]
  operandBatchingDims := []
  startIndicesBatchingDims := []
  startIndexMap := [0]
  indexVectorDim := 1
  sliceSizes := ![1, 128]
  wf := gather_S36864x128_S32768x1_S32768x128_1_0_n_n_0_1_1128_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.KernelPieces.lean ====
/-
  What each control case of the kernel body leaves behind, as values of what it loaded.

  The body keeps a [512, 128] accumulator in a scratch buffer across the eight points of a row block. At every point
  it adds the product of the point's [512, 4096] block of `dif` and [4096, 128] block of `src` to it; at the first
  point of a row block it first stores zeros (and reads them back); at the last point it reads the accumulator back,
  sets the block of `dst` beside it, multiplies by `w`, clamps at zero, and stores that into the output block.
  Each statement below reads the stores the body's run found back as ONE value: the payload of the (last covering)
  store, its loads the whole staging buffers.
-/
import proofs.«124088_j60103772340411_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point (neither first nor last of its row block): the accumulator `xs0` ends at `xs0 + x0 · x1`. -/
theorem sout_B (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x4096 .f32) (x1 : Vec F S4096x128 .f32) (x2 : Vec F S512x128 .f32) (x3 : Vec F S256x128 .f32) (xs0 : Vec F S512x128 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.readCov_unit_zero (S := S512x128) _ hz,
    View.ld_unit_zero (S := S512x4096) hz, View.ld_unit_zero (S := S4096x128) hz, View.ld_unit_zero (S := S512x128) hz,
    View.ld_unit_zero (S := S256x128) hz]

/-- The last point of a row block leaves the accumulator at `xs0 + x0 · x1` too; -/
theorem sout_C (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x4096 .f32) (x1 : Vec F S4096x128 .f32) (x2 : Vec F S512x128 .f32) (x3 : Vec F S256x128 .f32) (xs0 : Vec F S512x128 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.readCov_unit_zero (S := S512x128) _ hz,
    View.ld_unit_zero (S := S512x4096) hz, View.ld_unit_zero (S := S4096x128) hz, View.ld_unit_zero (S := S512x128) hz,
    View.ld_unit_zero (S := S256x128) hz]

/-- and stores, into the output block, the epilogue of that accumulator, the block `x2` of `dst` and `x3 = w`. -/
theorem out_C (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x4096 .f32) (x1 : Vec F S4096x128 .f32) (x2 : Vec F S512x128 .f32) (x3 : Vec F S256x128 .f32) (xs0 : Vec F S512x128 .f32) :
    out0_C_4 c i arg2 harg2 arg3 harg3 arg4 harg4 arg5 harg5 arg6 harg6 arg7 harg7 hc0 hc1 x0 x1 x2 x3 xs0 = k0_pay3 (k0_pay2 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.readCov_unit_zero (S := S512x128) _ hz,
    View.ld_unit_zero (S := S512x4096) hz, View.ld_unit_zero (S := S4096x128) hz, View.ld_unit_zero (S := S512x128) hz,
    View.ld_unit_zero (S := S256x128) hz]

/-- The first point of a row block: the zeros stored and read back, the accumulator ends at `0 + x0 · x1`. -/
theorem sout_A (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x4096 .f32) (x1 : Vec F S4096x128 .f32) (x2 : Vec F S512x128 .f32) (x3 : Vec F S256x128 .f32) :
    sout0_A_0 c i arg2 harg2 arg3 harg3 arg4 harg4 arg5 harg5 arg6 harg6 arg7 harg7 hc0 hc1 x0 x1 x2 x3 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg7.read_unread,
    View.readCov_unit_zero (S := S512x128) _ hz,
    View.ld_unit_zero (S := S512x4096) hz, View.ld_unit_zero (S := S4096x128) hz, View.ld_unit_zero (S := S512x128) hz,
    View.ld_unit_zero (S := S256x128) hz]

end Cert.KernelIdeal.Pieces

end
-- ==== Proof.Spec.lean ====
/-
  What the two programs compute, stated once, at the extended reals.

  Both programs first take rows of the feature table by two index vectors (the same host operations in both: the
  negative indices wrapped, the rows gathered, a row whose index falls outside the table replaced by a fixed word);
  that stretch is carried as ONE function `takeRows` of the table and the index vector and never opened.

  Then, with `dif` [4096, 32768], `src` [32768, 128], `dst` [4096, 128] and `w` [256, 128], the result at (r, c) is
    max (∑ j < 256, cat r j · w j c) 0,   cat r j = (∑ K < 32768, dif r K · src K j) for j < 128, dst r (j − 128) otherwise.
  Arrays are read through `nat2`, the array continued by zero outside its extents, so that all the index
  arithmetic (row r = 512·i + p of row block i, column K = 4096·s + k of column block s) is arithmetic on numbers.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember

noncomputable section

namespace Cert.Spec

open Idealize.ShloMosaic Idealize.ShloMosaic.ValueIdx

/-! ## The shared row take -/

/-- The shape side conditions the row take's operations ask, for an index vector of `n` entries into the
    [36864, 128] table. -/
structure TakeFacts (n : ℕ) : Prop where
  b0 : (⟨0, ![]⟩ : Shape).BroadcastsInDim ⟨1, ![n]⟩ (![] : Fin 0 → Fin 1)
  b1 : (⟨1, ![n]⟩ : Shape).BroadcastsInDim ⟨2, ![n, 1]⟩ (![0] : Fin 1 → Fin 2)
  b2 : (⟨0, ![]⟩ : Shape).BroadcastsInDim ⟨2, ![n, 1]⟩ (![] : Fin 0 → Fin 2)
  b3 : (⟨1, ![1]⟩ : Shape).BroadcastsInDim ⟨2, ![1, 1]⟩ (![1] : Fin 1 → Fin 2)
  b4 : (⟨2, ![1, 1]⟩ : Shape).BroadcastsInDim ⟨2, ![n, 1]⟩ (![0, 1] : Fin 2 → Fin 2)
  red : (⟨2, ![n, 1]⟩ : Shape).ReducesTo [1] ⟨1, ![n]⟩
  hS : 0 < (⟨0, ![]⟩ : Shape).numel
  b5 : (⟨1, ![n]⟩ : Shape).BroadcastsInDim ⟨2, ![n, 128]⟩ (![0] : Fin 1 → Fin 2)
  b6 : (⟨0, ![]⟩ : Shape).BroadcastsInDim ⟨2, ![n, 128]⟩ (![] : Fin 0 → Fin 2)
  gwf : GatherDims.WF ⟨2, ![36864, 128]⟩ ⟨2, ![n, 1]⟩ ⟨2, ![n, 128]⟩ [1] [0] [] [0] [] 1 ![1, 128]

theorem take4096 : TakeFacts 4096 := ⟨by decide, by decide, by decide, by decide, by decide, by decide, by decide, by decide, by decide, by decide⟩
theorem take32768 : TakeFacts 32768 := ⟨by decide, by decide, by decide, by decide, by decide, by decide, by decide, by decide, by decide, by decide⟩

variable {F : FTy → Type} [FloatOps F]

/-- The rows of the table `x` named by the index vector `idx`: a negative index has the table's height added, the rows
    are gathered, and a row whose (wrapped) index is outside `0 … 36863` is replaced by the word `0x7FC00000`. Spelled
    operation by operation as both programs print it; nothing below looks inside. -/
def takeRows {n : ℕ} (h : TakeFacts n) (x : FVec F ⟨2, ![36864, 128]⟩ .f32) (idx : IVec ⟨1, ![n]⟩ 32) :
    FVec F ⟨2, ![n, 128]⟩ .f32 :=
  let wrapped : IVec ⟨1, ![n]⟩ 32 :=
    select (cmpi .slt idx (broadcastInDim ⟨1, ![n]⟩ ![] h.b0 (constantI ⟨0, ![]⟩ 32 0#32)))
      (addi idx (broadcastInDim ⟨1, ![n]⟩ ![] h.b0 (constantI ⟨0, ![]⟩ 32 36864#32))) idx
  let col : IVec ⟨2, ![n, 1]⟩ 32 := broadcastInDim ⟨2, ![n, 1]⟩ ![0] h.b1 wrapped
  let inside : IVec ⟨2, ![n, 1]⟩ 1 :=
    andi (cmpi .sge col (broadcastInDim ⟨2, ![n, 1]⟩ ![] h.b2 (constantI ⟨0, ![]⟩ 32 0#32)))
      (cmpi .sle col (broadcastInDim ⟨2, ![n, 1]⟩ ![0, 1] h.b4
        (broadcastInDim ⟨2, ![1, 1]⟩ ![1] h.b3 (constantI ⟨1, ![1]⟩ 32 36863#32))))
  let ok : IVec ⟨1, ![n]⟩ 1 := Host.reduce IntOp.andi inside (constantI ⟨0, ![]⟩ 1 1#1) h.red h.hS
  select (broadcastInDim ⟨2, ![n, 128]⟩ ![0] h.b5 ok)
    (Host.gather (⟨[1], [0], [], [], [0], 1, ![1, 128], h.gwf⟩ : GatherDims ⟨2, ![36864, 128]⟩ ⟨2, ![n, 1]⟩ ⟨2, ![n, 128]⟩) x col)
    (broadcastInDim ⟨2, ![n, 128]⟩ ![] h.b6 (constant ⟨0, ![]⟩ .f32 0x7FC00000#32))

/-! ## Arrays read at numbers -/

/-- A matrix continued by zero outside its extents, read at two numbers. -/
def nat2 {a b : ℕ} (x : FVec Ideal ⟨2, ![a, b]⟩ .f32) (i j : ℕ) : EReal :=
  if h : i < a ∧ j < b then x (ix2 ⟨i, h.1⟩ ⟨j, h.2⟩) else 0

theorem nat2_val {a b : ℕ} (x : FVec Ideal ⟨2, ![a, b]⟩ .f32) (p : Fin a) (q : Fin b) :
    nat2 x p.val q.val = x (ix2 p q) := by
  unfold nat2; rw [dif_pos ⟨p.isLt, q.isLt⟩]

theorem nat2_of_lt {a b : ℕ} (x : FVec Ideal ⟨2, ![a, b]⟩ .f32) (i j : ℕ) (hi : i < a) (hj : j < b) :
    nat2 x i j = x (ix2 ⟨i, hi⟩ ⟨j, hj⟩) := by
  unfold nat2; rw [dif_pos ⟨hi, hj⟩]

/-! ## The result, index by index -/

variable (dif : FVec Ideal ⟨2, ![4096, 32768]⟩ .f32) (src : FVec Ideal ⟨2, ![32768, 128]⟩ .f32)
  (dst : FVec Ideal ⟨2, ![4096, 128]⟩ .f32) (w : FVec Ideal ⟨2, ![256, 128]⟩ .f32)

/-- Row `r` of `dif` against column `d` of `src`: the aggregation over all 32768 source rows. -/
def agg (r d : ℕ) : EReal := ∑ K : Fin 32768, nat2 dif r K.val * nat2 src K.val d

/-- Row `r` of the aggregation followed by row `r` of `dst`: 256 entries. -/
def cat (r j : ℕ) : EReal := if j < 128 then agg dif src r j else nat2 dst r (j - 128)

/-- The result at row `r`, column `c`. -/
def Gat (r c : ℕ) : EReal := max (∑ j : Fin 256, cat dif src dst r j.val * nat2 w j.val c) (Ideal.ofBits .f32 0x00000000#32)

/-- The result array. -/
def G : FVec Ideal ⟨2, ![4096, 128]⟩ .f32 := fun i => Gat dif src dst w (i 0).val (i 1).val

theorem G_apply (r : Fin 4096) (c : Fin 128) : G dif src dst w (ix2 r c) = Gat dif src dst w r.val c.val := rfl

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.SpecLaws.lean ====
/-
  The operations both programs end with, read at an index of the extended reals: a rows-by-columns product as the
  sum over the shared coordinate, two [R, 128] blocks set side by side, and the epilogue — the side-by-side rows
  against `w`, clamped below at the second operand — for any number of rows `R`, so that it serves the reference
  (all 4096 rows) and the kernel (one block of 512 rows) alike.
-/
import proofs.«124088_j60103772340411_1_alg».proof.Proof.Spec
import proofs.«124088_j60103772340411_1_alg».proof.Proof.LibLayout
import Idealize.ShloMosaic.Lib.KernelVsHost

noncomputable section

namespace Cert.Spec

open Idealize.ShloMosaic Idealize.ShloMosaic.ValueIdx

/-- A plain rows-by-columns product at (a, b): the sum over the shared coordinate, the operands read at numbers. -/
theorem dot_nat {m k n : ℕ} (d : DotDims ⟨2, ![m, k]⟩ ⟨2, ![k, n]⟩ ⟨2, ![m, n]⟩) (hd : d = DotDims.plain m k n)
    (prec : Option ContractPrecision) (A : FVec Ideal ⟨2, ![m, k]⟩ .f32) (B : FVec Ideal ⟨2, ![k, n]⟩ .f32)
    (a : Fin m) (b : Fin n) :
    Host.dotGeneral d prec A B (ix2 a b) = ∑ c : Fin k, nat2 A a.val c.val * nat2 B c.val b.val := by
  subst hd
  rw [StackMember.dotGeneral_plain_apply]
  exact Finset.sum_congr rfl fun c _ => by rw [nat2_val, nat2_val]

/-- Two [R, 128] blocks side by side, at (r, j): the first block's column j, or the second's column j − 128. -/
theorem concat_nat {R : ℕ} (A B : FVec Ideal ⟨2, ![R, 128]⟩ .f32)
    (hc : Shape.Concatenates [(⟨2, ![R, 128]⟩ : Shape), ⟨2, ![R, 128]⟩] ⟨2, ![R, 256]⟩ 1) (r : Fin R) (j : Fin 256) :
    concatenate (⟨2, ![R, 256]⟩ : Shape) 1 [⟨⟨2, ![R, 128]⟩, A⟩, ⟨⟨2, ![R, 128]⟩, B⟩] hc (ix2 r j)
      = if j.val < 128 then nat2 A r.val j.val else nat2 B r.val (j.val - 128) := by
  by_cases h : j.val < 128
  · rw [if_pos h, nat2_of_lt A _ _ r.isLt h]
    refine concatenate_pair_apply_left (1 : Fin 2) A B hc (ix2 r j) rfl (ix2 r ⟨j.val, h⟩) fun b => ?_
    match b with
    | ⟨0, _⟩ => rfl
    | ⟨1, _⟩ => rfl
  · have h2 : j.val - 128 < 128 := by have := j.isLt; omega
    rw [if_neg h, nat2_of_lt B _ _ r.isLt h2]
    refine concatenate_pair_apply_right (1 : Fin 2) A B hc (ix2 r j) rfl rfl (ix2 r ⟨j.val - 128, h2⟩) (fun b hb => ?_) ?_
    · match b with
      | ⟨0, _⟩ => rfl
      | ⟨1, _⟩ => exact absurd rfl hb
    · show j.val - 128 + 128 = j.val
      omega

/-- THE EPILOGUE at (r, c): row r of the two blocks side by side against column c of `w`, clamped below at `Z`. -/
theorem epilogue_nat {R : ℕ} (d : DotDims ⟨2, ![R, 256]⟩ ⟨2, ![256, 128]⟩ ⟨2, ![R, 128]⟩) (hd : d = DotDims.plain R 256 128)
    (prec : Option ContractPrecision) (A B : FVec Ideal ⟨2, ![R, 128]⟩ .f32)
    (hc : Shape.Concatenates [(⟨2, ![R, 128]⟩ : Shape), ⟨2, ![R, 128]⟩] ⟨2, ![R, 256]⟩ 1)
    (W : FVec Ideal ⟨2, ![256, 128]⟩ .f32) (Z : FVec Ideal ⟨2, ![R, 128]⟩ .f32) (r : Fin R) (c : Fin 128) :
    maximumf (Host.dotGeneral d prec (concatenate (⟨2, ![R, 256]⟩ : Shape) 1 [⟨⟨2, ![R, 128]⟩, A⟩, ⟨⟨2, ![R, 128]⟩, B⟩] hc) W) Z (ix2 r c)
      = max (∑ j : Fin 256, (if j.val < 128 then nat2 A r.val j.val else nat2 B r.val (j.val - 128)) * nat2 W j.val c.val)
          (Z (ix2 r c)) := by
  rw [maximumf_apply, dot_nat d hd]
  refine congrArg (max · _) (Finset.sum_congr rfl fun j _ => ?_)
  rw [nat2_val, concat_nat]

end Cert.Spec

end
-- ==== Proof.LibBlockSum.lean ====
/-
  Sums over a product index cut into equal blocks: the sum over `Fin (a * b)` of a function of the position is the
  sum over the `a` blocks of the sums over the `b` positions inside a block, position `s * b + k` being position `k`
  of block `s`. Holds in any commutative additive monoid, so also on the extended reals, where only commutativity and
  associativity of the sum are used.
-/
import Mathlib.Algebra.BigOperators.Fin
import Mathlib.Logic.Equiv.Fin.Basic

namespace Cert.LibBlockSum

open Finset

variable {M : Type*} [AddCommMonoid M]

/-- The sum over all `a * b` positions, block by block: block `s` holds the positions `s * b + k`, `k < b`. -/
theorem sum_range_blocks (a b : ℕ) (g : ℕ → M) :
    ∑ s ∈ Finset.range a, ∑ k : Fin b, g (s * b + k.val) = ∑ K : Fin (a * b), g K.val := by
  rw [Finset.sum_range fun s => ∑ k : Fin b, g (s * b + k.val)]
  rw [← Equiv.sum_comp finProdFinEquiv fun K : Fin (a * b) => g K.val, Fintype.sum_prod_type]
  refine Finset.sum_congr rfl fun s _ => Finset.sum_congr rfl fun k _ => ?_
  show g (s.val * b + k.val) = g (k.val + b * s.val)
  rw [Nat.mul_comm, Nat.add_comm]

end Cert.LibBlockSum
-- ==== Proof.KernelAcc.lean ====
/-
  The accumulator across the eight points of a row block, at the extended reals.

  Point t = 8·i + s stages rows 512·i … of `dif` at columns 4096·s …, rows 4096·s … of `src`, rows 512·i … of `dst`,
  and all of `w`. The scratch accumulator after point t holds, at (p, d), the sum over the source-column blocks
  0 … s of ∑ₖ dif (512·i + p) (4096·s' + k) · src (4096·s' + k) d: zero plus the first block's product at the first point
  of the row block, the previous contents plus the point's product afterwards. After the last point (s = 7) that is
  the whole aggregation ∑ K < 32768, by cutting the sum over K into its eight blocks; only commutativity and
  associativity of the sum on the extended reals are used, and 0 + x = x.
-/
import proofs.«124088_j60103772340411_1_alg».proof.Proof.KernelPieces
import proofs.«124088_j60103772340411_1_alg».proof.Proof.SpecLaws
import proofs.«124088_j60103772340411_1_alg».proof.Proof.LibBlockSum
import proofs.«124088_j60103772340411_1_alg».proof.Proof.Gen.KernelIdeal.Value

noncomputable section

namespace Cert.KernelIdeal.Acc

open Cert.KernelIdeal Cert.KernelIdeal.Gen Cert.Spec
open Idealize.ShloMosaic Idealize.ShloMosaic.TcCoe Idealize.SL.Sem Idealize.ShloMosaic.ValueIdx

variable (m : (ℓ : Loc nD τ sig) → Buf (Elt Ideal) ℓ)

/-! ## The arrays the region finds, and the blocks a point stages, at their literal types -/

abbrev difArr (c : Dev nD) : FVec Ideal ⟨2, ![4096, 32768]⟩ .f32 := V m c main_arg1
abbrev srcArr (c : Dev nD) : FVec Ideal ⟨2, ![32768, 128]⟩ .f32 := V m c main_v1
abbrev dstArr (c : Dev nD) : FVec Ideal ⟨2, ![4096, 128]⟩ .f32 := V m c main_v0
abbrev wArr (c : Dev nD) : FVec Ideal ⟨2, ![256, 128]⟩ .f32 := V m c main_arg2

abbrev difBlk (c : Dev nD) (t : Fin cfg0.N) : FVec Ideal ⟨2, ![512, 4096]⟩ .f32 := iblk m c 0 t
abbrev srcBlk (c : Dev nD) (t : Fin cfg0.N) : FVec Ideal ⟨2, ![4096, 128]⟩ .f32 := iblk m c 1 t
abbrev dstBlk (c : Dev nD) (t : Fin cfg0.N) : FVec Ideal ⟨2, ![512, 128]⟩ .f32 := iblk m c 2 t
abbrev wBlk (c : Dev nD) (t : Fin cfg0.N) : FVec Ideal ⟨2, ![256, 128]⟩ .f32 := iblk m c 3 t

/-- The scratch accumulator after point `n`. -/
abbrev accAfter (c : Dev nD) (n : ℕ) (h : n < cfg0.N) : FVec Ideal ⟨2, ![512, 128]⟩ .f32 := (outsAt0 m c n h).2

/-- The printed index maps over the grid: point t = 8·i + s is at row block i = t / 8 and source block s = t % 8. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

theorem lt64 (t : Fin cfg0.N) : t.val < 64 := lt_of_lt_of_eq t.isLt (show cfg0.N = 64 from N_0)

/-- The block of `dif` at point t, entry (p, k): row 512·(t / 8) + p, column (t % 8)·4096 + k of the array. -/
theorem difBlk_apply (c : Dev nD) (t : Fin cfg0.N) (p : Fin 512) (k : Fin 4096) :
    difBlk m c t (ix2 p k) = nat2 (difArr m c) (512 * (t.val / 8) + p.val) (t.val % 8 * 4096 + k.val) := by
  have hN := lt64 t
  obtain ⟨e0, e1, -⟩ := idx_facts t
  rw [nat2_of_lt _ _ _ (by omega) (by omega)]
  show iblk m c 0 t (ix2 p k) = _
  unfold iblk
  rw [View.read_apply]
  show V m c main_arg1 (((cfg0.win 0).blk t).view.emb (ix2 p k)) = V m c main_arg1 _
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 4096 + 1 * k.val = t.val % 8 * 4096 + k.val; omega

/-- The block of `src` at point t, entry (k, d): row (t % 8)·4096 + k of the array. -/
theorem srcBlk_apply (c : Dev nD) (t : Fin cfg0.N) (k : Fin 4096) (d : Fin 128) :
    srcBlk m c t (ix2 k d) = nat2 (srcArr m c) (t.val % 8 * 4096 + k.val) d.val := by
  have hN := lt64 t
  obtain ⟨-, -, e0, e1, -⟩ := idx_facts t
  rw [nat2_of_lt _ _ _ (by omega) d.isLt]
  show iblk m c 1 t (ix2 k d) = _
  unfold iblk
  rw [View.read_apply]
  show V m c main_v1 (((cfg0.win 1).blk t).view.emb (ix2 k d)) = V m c main_v1 _
  refine congrArg _ (funext fun a => Fin.ext ?_)
  match a with
  | ⟨0, _⟩ => show win0_1.index t (0 : Fin 2) * 4096 + 1 * k.val = t.val % 8 * 4096 + k.val; omega
  | ⟨1, _⟩ => show win0_1.index t (1 : Fin 2) * 128 + 1 * d.val = d.val; omega

/-- The block of `dst` at point t, entry (p, d): row 512·(t / 8) + p of the array. -/
theorem dstBlk_apply (c : Dev nD) (t : Fin cfg0.N) (p : Fin 512) (d : Fin 128) :
    dstBlk m c t (ix2 p d) = nat2 (dstArr m c) (512 * (t.val / 8) + p.val) d.val := by
  have hN := lt64 t
  obtain ⟨-, -, -, -, e0, e1, -⟩ := idx_facts t
  rw [nat2_of_lt _ _ _ (by omega) d.isLt]
  show iblk m c 2 t (ix2 p d) = _
  unfold iblk
  rw [View.read_apply]
  show V m c main_v0 (((cfg0.win 2).blk t).view.emb (ix2 p d)) = V m c main_v0 _
  refine congrArg _ (funext fun a => Fin.ext ?_)
  match a with
  | ⟨0, _⟩ => show win0_2.index t (0 : Fin 2) * 512 + 1 * p.val = 512 * (t.val / 8) + p.val; omega
  | ⟨1, _⟩ => show win0_2.index t (1 : Fin 2) * 128 + 1 * d.val = d.val; omega

/-- The block of `w` at any point is the whole array. -/
theorem wBlk_apply (c : Dev nD) (t : Fin cfg0.N) (j : Fin 256) (d : Fin 128) :
    wBlk m c t (ix2 j d) = nat2 (wArr m c) j.val d.val := by
  obtain ⟨-, -, -, -, -, -, e0, e1, -⟩ := idx_facts t
  rw [nat2_val]
  show iblk m c 3 t (ix2 j d) = _
  unfold iblk
  rw [View.read_apply]
  show V m c main_arg2 (((cfg0.win 3).blk t).view.emb (ix2 j d)) = V m c main_arg2 _
  refine congrArg _ (funext fun a => Fin.ext ?_)
  match a with
  | ⟨0, _⟩ => show win0_3.index t (0 : Fin 2) * 256 + 1 * j.val = j.val; omega
  | ⟨1, _⟩ => show win0_3.index t (1 : Fin 2) * 128 + 1 * d.val = d.val; omega

/-! ## The payloads at an index -/

/-- The accumulating store's value at (p, d): what the accumulator held there plus the blocks' product. -/
theorem pay2_apply (x0 : FVec Ideal ⟨2, ![512, 4096]⟩ .f32) (x1 : FVec Ideal ⟨2, ![4096, 128]⟩ .f32)
    (acc : FVec Ideal ⟨2, ![512, 128]⟩ .f32) (p : Fin 512) (d : Fin 128) :
    k0_pay2 (F := Ideal) x0 x1 acc (ix2 p d) = acc (ix2 p d) + ∑ k : Fin 4096, nat2 x0 p.val k.val * nat2 x1 k.val d.val := by
  have e : k0_pay2 (F := Ideal) x0 x1 acc = addf acc (Host.dotGeneral dot_S512x4096_S4096x128_S512x128_1_0_0_1_n_n none x0 x1) := by
    unfold k0_pay2
    dsimp only
    rw [shapeCast_self, shapeCast_self, matmul_zero_eq_dotGeneral]
    rfl
  rw [e, addf_apply, dot_nat dot_S512x4096_S4096x128_S512x128_1_0_0_1_n_n rfl]

/-- The zero block the first point of a row block stores is zero at every entry. -/
theorem pay1_apply (y : (⟨2, ![512, 128]⟩ : Shape).Idx) : k0_pay1 (F := Ideal) y = 0 := by
  unfold k0_pay1
  rw [shapeCast_self]
  exact Ideal.ofBits_zero_f32

/-- The epilogue's value at (p, c'): the accumulator's row p beside the `dst` block's row p, against column c' of `w`,
    clamped below at zero. -/
theorem pay3_apply (acc x2 : FVec Ideal ⟨2, ![512, 128]⟩ .f32) (x3 : FVec Ideal ⟨2, ![256, 128]⟩ .f32) (p : Fin 512) (c' : Fin 128) :
    k0_pay3 (F := Ideal) acc x2 x3 (ix2 p c')
      = max (∑ j : Fin 256, (if j.val < 128 then nat2 acc p.val j.val else nat2 x2 p.val (j.val - 128)) * nat2 x3 j.val c'.val)
          (Ideal.ofBits .f32 0x00000000#32) := by
  have e : k0_pay3 (F := Ideal) acc x2 x3
      = maximumf (Host.dotGeneral dot_S512x256_S256x128_S512x128_1_0_0_1_n_n none
          (concatenate S512x256 1 [⟨S512x128, acc⟩, ⟨S512x128, x2⟩] concatenates_S512x128_S512x128_S512x256_d1) x3)
          (broadcast S512x128 (Scalar.ofBits .f32 0x00000000#32)) := by
    unfold k0_pay3
    dsimp only
    rw [shapeCast_self, matmul_zero_eq_dotGeneral]
    rfl
  rw [e, epilogue_nat dot_S512x256_S256x128_S512x128_1_0_0_1_n_n rfl]
  rfl

/-! ## What each point leaves -/

/-- At the first point of a row block the accumulator ends at the zero block plus the point's product; -/
theorem acc_first (c : Dev nD) (t : Fin cfg0.N) (h0 : t.val % 8 = 0) :
    accAfter m c t.val t.isLt = k0_pay2 (difBlk m c t) (srcBlk m c t) (k0_pay1 (F := Ideal)) := by
  have h1 : ¬t.val % 8 = 7 := by omega
  show (outsAt0 m c t.val t.isLt).2 = _
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- at every other point at what the point before left plus the point's product. -/
theorem acc_next (c : Dev nD) (t : Fin cfg0.N) (h0 : ¬t.val % 8 = 0) :
    accAfter m c t.val t.isLt
      = k0_pay2 (difBlk m c t) (srcBlk m c t) (accAfter m c (t.val - 1) (Nat.lt_of_le_of_lt (Nat.sub_le _ _) t.isLt)) := by
  show (outsAt0 m c t.val t.isLt).2 = _
  by_cases h1 : t.val % 8 = 7
  · rw [outsAt0_C m c t h0 h1]
    dsimp only
    exact Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last point of a row block the output block is the epilogue of the accumulator that point leaves. -/
theorem out_last (c : Dev nD) (t : Fin cfg0.N) (h1 : t.val % 8 = 7) :
    ((outsAt0 m c t.val t.isLt).1 : FVec Ideal ⟨2, ![512, 128]⟩ .f32)
      = k0_pay3 (F := Ideal) (accAfter m c t.val t.isLt) (dstBlk m c t) (wBlk m c t) := by
  have h0 : ¬t.val % 8 = 0 := by omega
  rw [acc_next m c t h0]
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The running sum -/

/-- One source row's contribution to the aggregation at (r, d). -/
def term (c : Dev nD) (r d K : ℕ) : EReal := nat2 (difArr m c) r K * nat2 (srcArr m c) K d

/-- The product of point t's blocks at (p, d): source block t % 8's share of the aggregation at row 512·(t / 8) + p. -/
theorem blockprod (c : Dev nD) (t : Fin cfg0.N) (p : Fin 512) (d : Fin 128) :
    ∑ k : Fin 4096, nat2 (difBlk m c t) p.val k.val * nat2 (srcBlk m c t) k.val d.val
      = ∑ k : Fin 4096, term m c (512 * (t.val / 8) + p.val) d.val (t.val % 8 * 4096 + k.val) :=
  Finset.sum_congr rfl fun k _ => by rw [nat2_val, nat2_val, difBlk_apply, srcBlk_apply]; rfl

/-- THE INVARIANT: after point n the accumulator holds, at (p, d), the shares of source blocks 0 … n % 8. -/
theorem acc_eq (c : Dev nD) : ∀ (n : ℕ) (h : n < cfg0.N) (p : Fin 512) (d : Fin 128),
    accAfter m c n h (ix2 p d)
      = ∑ s ∈ Finset.range (n % 8 + 1), ∑ k : Fin 4096, term m c (512 * (n / 8) + p.val) d.val (s * 4096 + k.val)
  | 0, h, p, d => by
    rw [acc_first m c ⟨0, h⟩ rfl, pay2_apply, pay1_apply, zero_add, blockprod]
    exact (Finset.sum_range_one (fun s => ∑ k : Fin 4096, term m c (512 * (0 / 8) + p.val) d.val (s * 4096 + k.val))).symm
  | n + 1, h, p, d => by
    have hN : n + 1 < 64 := lt_of_lt_of_eq h (show cfg0.N = 64 from N_0)
    by_cases h0 : (n + 1) % 8 = 0
    · rw [acc_first m c ⟨n + 1, h⟩ h0, pay2_apply, pay1_apply, zero_add, blockprod]
      show ∑ k : Fin 4096, term m c (512 * ((n + 1) / 8) + p.val) d.val ((n + 1) % 8 * 4096 + k.val) = _
      rw [h0]
      exact (Finset.sum_range_one (fun s => ∑ k : Fin 4096, term m c (512 * ((n + 1) / 8) + p.val) d.val (s * 4096 + k.val))).symm
    · rw [acc_next m c ⟨n + 1, h⟩ h0, pay2_apply, blockprod]
      show accAfter m c n _ (ix2 p d) + ∑ k : Fin 4096, term m c (512 * ((n + 1) / 8) + p.val) d.val ((n + 1) % 8 * 4096 + k.val) = _
      rw [acc_eq c n (Nat.lt_of_succ_lt h) p d]
      have e1 : (n + 1) / 8 = n / 8 := by omega
      have e2 : (n + 1) % 8 = n % 8 + 1 := by omega
      rw [e1, e2, Finset.sum_range_succ _ (n % 8 + 1)]

/-- After the last point of a row block the accumulator holds the whole aggregation of its rows. -/
theorem acc_last (c : Dev nD) (t : Fin cfg0.N) (h1 : t.val % 8 = 7) (p : Fin 512) (d : Fin 128) :
    accAfter m c t.val t.isLt (ix2 p d) = agg (difArr m c) (srcArr m c) (512 * (t.val / 8) + p.val) d.val := by
  rw [acc_eq m c t.val t.isLt p d, h1]
  exact Cert.LibBlockSum.sum_range_blocks 8 4096 (term m c (512 * (t.val / 8) + p.val) d.val)

end Cert.KernelIdeal.Acc

end
-- ==== Proof.KernelHost.lean ====
/-
  What the kernel's program does before its one region: the two row takes, each 23 host operations, leave the
  region the arrays it stages as `src` and `dst`. Both are the one function `Spec.takeRows` of the table and an
  index vector, as in the reference.
-/
import proofs.«124088_j60103772340411_1_alg».proof.Proof.Gen.KernelIdeal.Frame
import proofs.«124088_j60103772340411_1_alg».proof.Proof.Spec
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.gather in
set_option maxRecDepth 8192 in
set_option maxHeartbeats 1000000 in
/-- The region finds, as the array its window 1 stages, the rows of the table taken by the second index vector. -/
theorem V_src (c : Dev nD) :
    (V m c main_v1 : FVec F S32768x128 .f32)
      = Cert.Spec.takeRows Cert.Spec.take32768 (m ((c : Thread nD τ).loc main_arg0)) (m ((c : Thread nD τ).loc main_arg4)) := by
  dsimp only [V]
  simp only [hostOps0, hostOps0_1, List.flatten_cons, List.flatten_nil, List.append_nil, List.cons_append, List.nil_append]
  after_results
  rfl

attribute [local irreducible] Host.reduce Host.gather in
set_option maxRecDepth 8192 in
set_option maxHeartbeats 1000000 in
/-- The region finds, as the array its window 2 stages, the rows of the table taken by the first index vector. -/
theorem V_dst (c : Dev nD) :
    (V m c main_v0 : FVec F S4096x128 .f32)
      = Cert.Spec.takeRows Cert.Spec.take4096 (m ((c : Thread nD τ).loc main_arg0)) (m ((c : Thread nD τ).loc main_arg3)) := by
  dsimp only [V]
  simp only [hostOps0, hostOps0_1, List.flatten_cons, List.flatten_nil, List.append_nil, List.cons_append, List.nil_append]
  after_results
  rfl

end Cert.KernelIdeal.HostSide

end
-- ==== Proof.KernelValue.lean ====
/-
  The kernel's result array, whole: the last point of row block i writes back rows 512·i … 512·i + 511 of the result,
  each the epilogue of that row's finished aggregation beside the row of `dst`; the eight write-backs tile the
  array, so it ends at `Spec.G` of the arrays the region found — the launch's `dif` and `w`, and the two row takes.
-/
import proofs.«124088_j60103772340411_1_alg».proof.Proof.KernelAcc
import proofs.«124088_j60103772340411_1_alg».proof.Proof.KernelHost

noncomputable section

namespace Cert.KernelIdeal.KValue

open Cert.KernelIdeal Cert.KernelIdeal.Gen Cert.KernelIdeal.Acc Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result over the arrays as the region finds them. -/
abbrev found (c : Dev nD) : FVec Ideal ⟨2, ![4096, 128]⟩ .f32 := G (difArr m c) (srcArr m c) (dstArr m c) (wArr m c)

/-- WHAT A WRITE-BACK WRITES: at the last point of row block t / 8, the block of `found` at rows 512·(t / 8) …. -/
theorem flushed_eq (c : Dev nD) (t : Fin cfg0.N) (hf : (cfg0.win 4).flush t = true) :
    (dats m 0 c).flushed 4 t = ((cfg0.win 4).blk t).view.read (Elt Ideal) (found m c) := by
  have h1 : t.val % 8 = 7 := (flush0_4 t).mp hf
  have hN := lt64 t
  obtain ⟨-, -, -, -, -, -, -, -, e0, e1⟩ := idx_facts t
  rw [Cert.KernelIdeal.Value.flushed4]
  funext y
  obtain ⟨p, c', rfl⟩ : ∃ (p : Fin 512) (c' : Fin 128), y = ix2 p c' := ⟨y 0, y 1, eq_ix2 y⟩
  show ((outsAt0 m c t.val t.isLt).1 : FVec Ideal ⟨2, ![512, 128]⟩ .f32) (ix2 p c') = _
  rw [out_last m c t h1, pay3_apply, View.read_apply]
  show _ = found m c (((cfg0.win 4).blk t).view.emb (ix2 p c'))
  have hemb : ((cfg0.win 4).blk t).view.emb (ix2 p c') = ix2 (⟨512 * (t.val / 8) + p.val, by omega⟩ : Fin 4096) c' :=
    funext fun a => Fin.ext (by
      match a with
      | ⟨0, _⟩ => show win0_4.index t (0 : Fin 2) * 512 + 1 * p.val = 512 * (t.val / 8) + p.val; omega
      | ⟨1, _⟩ => show win0_4.index t (1 : Fin 2) * 128 + 1 * c'.val = c'.val; omega)
  rw [hemb]
  show _ = Gat (difArr m c) (srcArr m c) (dstArr m c) (wArr m c) (512 * (t.val / 8) + p.val) c'.val
  unfold Gat
  refine congrArg (max · _) (Finset.sum_congr rfl fun j _ => ?_)
  have hw : nat2 (wBlk m c t) j.val c'.val = nat2 (wArr m c) j.val c'.val := by rw [nat2_val, wBlk_apply]
  rw [hw]
  refine congrArg (· * _) ?_
  unfold cat
  by_cases hj : j.val < 128
  · rw [if_pos hj, if_pos hj, nat2_of_lt _ _ _ p.isLt hj]
    exact acc_last m c t h1 p ⟨j.val, hj⟩
  · have h2 : j.val - 128 < 128 := by have := j.isLt; omega
    rw [if_neg hj, if_neg hj, nat2_of_lt _ _ _ p.isLt h2, dstBlk_apply]

/-- An index of the result array is in point t's block iff each coordinate is in the block's range on its axis. -/
theorem mem_blk4 (t : Fin cfg0.N) (i : S4096x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v2).slice (win0_4.rect t)).set ↔ _
  rw [View.set_slice_whole, Rect.mem_set_unit]
  exact Iff.rfl

/-- THE ARRAY after the run: row r is written by the last point of row block r / 512. -/
theorem final (c : Dev nD) : (dats m 0 c).arrAt 4 cfg0.N = found m c :=
  (dats m 0 c).arrAt_eq_of_cover 4 (found m c) (flushed_eq m c) fun i => by
    have hi0 : (i 0).val < 4096 := (i 0).isLt
    have hi1 : (i 1).val < 128 := (i 1).isLt
    have hlt : 8 * ((i 0).val / 512) + 7 < cfg0.N := by rw [show cfg0.N = 64 from N_0]; omega
    refine ⟨⟨8 * ((i 0).val / 512) + 7, hlt⟩, (flush0_4 _).mpr (by show (8 * ((i 0).val / 512) + 7) % 8 = 7; omega), ?_⟩
    rw [mem_blk4]
    obtain ⟨-, -, -, -, -, -, -, -, e0, e1⟩ := idx_facts ⟨8 * ((i 0).val / 512) + 7, hlt⟩
    have e0' : win0_4.index ⟨8 * ((i 0).val / 512) + 7, hlt⟩ (0 : Fin 2) = (8 * ((i 0).val / 512) + 7) / 8 := e0
    intro a
    match a with
    | ⟨0, _⟩ =>
      show win0_4.index ⟨8 * ((i 0).val / 512) + 7, hlt⟩ (0 : Fin 2) * 512 ≤ (i 0).val ∧ (i 0).val < win0_4.index ⟨8 * ((i 0).val / 512) + 7, hlt⟩ (0 : Fin 2) * 512 + 512
      rw [e0']; omega
    | ⟨1, _⟩ =>
      show win0_4.index ⟨8 * ((i 0).val / 512) + 7, hlt⟩ (1 : Fin 2) * 128 ≤ (i 1).val ∧ (i 1).val < win0_4.index ⟨8 * ((i 0).val / 512) + 7, hlt⟩ (1 : Fin 2) * 128 + 128
      rw [e1]; omega

/-- The arrays the region finds, in terms of the launch contents: `dif` and `w` untouched, `src` and `dst` the row takes. -/
theorem found_eq (c : Dev nD) :
    found m c = G (m ((c : Thread nD τ).loc main_arg1))
      (takeRows take32768 (m ((c : Thread nD τ).loc main_arg0)) (m ((c : Thread nD τ).loc main_arg4)))
      (takeRows take4096 (m ((c : Thread nD τ).loc main_arg0)) (m ((c : Thread nD τ).loc main_arg3)))
      (m ((c : Thread nD τ).loc main_arg2)) := by
  show G (V m c main_arg1) (V m c main_v1) (V m c main_v0) (V m c main_arg2) = _
  rw [V_main_arg1 m c, Cert.KernelIdeal.HostSide.V_src m c, Cert.KernelIdeal.HostSide.V_dst m c, V_main_arg2 m c]

/-- The run, read: the result array at `Spec.G` of the launch contents, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg1))
            (takeRows take32768 (m ((c : Thread nD τ).loc main_arg0)) (m ((c : Thread nD τ).loc main_arg4)))
            (takeRows take4096 (m ((c : Thread nD τ).loc main_arg0)) (m ((c : Thread nD τ).loc main_arg3)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (Cert.KernelIdeal.Value.run_blocks m ρ)

end Cert.KernelIdeal.KValue

end
-- ==== Proof.RefRun.lean ====
/-
  The reference program's run: its @main is a straight line of 52 host operations once the functions it calls
  (the two row takes, the select inside each, the final maximum with zero) are laid out at their call sites; every
  weakly fair execution ends with each buffer at the operations' composed value of the launch contents.
-/
import proofs.«124088_j60103772340411_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls laid out: 23 for each row take (the index wrapped, the range test, the
    gather, the replacement of out-of-range rows), the aggregation product, the concatenation, the second product,
    and the maximum with the zero splat (3). -/
abbrev ops : List (HloOp τ sig (Elt F)) :=
  [ TRef.nullary main_call0.c (constantI S_ 32 0#32),
    TRef.unary main_call0.c main_call0.v0 (broadcastInDim S4096 ![] bcast_S_S4096),
    TRef.binary (.of main_arg3) main_call0.v0 main_call0.v1 (cmpi .slt),
    TRef.nullary main_call0.c_0 (constantI S_ 32 36864#32),
    TRef.unary main_call0.c_0 main_call0.v2 (broadcastInDim S4096 ![] bcast_S_S4096),
    TRef.binary (.of main_arg3) main_call0.v2 main_call0.v3 addi,
    TRef.ternary main_call0.v1 main_call0.v3 (.of main_arg3) main_call0.call0.v0 select,
    TRef.unary main_call0.call0.v0 main_call0.v5 (broadcastInDim S4096x1 ![0] bcast_S4096_S4096x1_0),
    TRef.nullary main_call0.c_1 (constantI S1 32 36863#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S36864x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    TRef.nullary main_call1.c (constantI S_ 32 0#32),
    TRef.unary main_call1.c main_call1.v0 (broadcastInDim S32768 ![] bcast_S_S32768),
    TRef.binary (.of main_arg4) main_call1.v0 main_call1.v1 (cmpi .slt),
    TRef.nullary main_call1.c_0 (constantI S_ 32 36864#32),
    TRef.unary main_call1.c_0 main_call1.v2 (broadcastInDim S32768 ![] bcast_S_S32768),
    TRef.binary (.of main_arg4) main_call1.v2 main_call1.v3 addi,
    TRef.ternary main_call1.v1 main_call1.v3 (.of main_arg4) main_call1.call0.v0 select,
    TRef.unary main_call1.call0.v0 main_call1.v5 (broadcastInDim S32768x1 ![0] bcast_S32768_S32768x1_0),
    TRef.nullary main_call1.c_1 (constantI S1 32 36863#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg0) main_call1.v5 main_call1.v13 (fun x i => Host.gather gather_S36864x128_S32768x1_S32768x128_1_0_n_n_0_1_1128 x i),
    TRef.unary main_call1.v12 main_call1.v14 (broadcastInDim S32768x128 ![0] bcast_S32768_S32768x128_0),
    TRef.nullary main_call1.cst (constant S_ .f32 0x7FC00000#32),
    TRef.unary main_call1.cst main_call1.v15 (broadcastInDim S32768x128 ![] bcast_S_S32768x128),
    TRef.ternary main_call1.v14 main_call1.v13 main_call1.v15 main_call1.v16 select,
    binary main_arg1 main_v1 main_v2 ((fun l r => Host.dotGeneral dot_S4096x32768_S32768x128_S4096x128_1_0_0_1_n_n none l r) : (⟨S4096x32768, .f32⟩ : BufTy).Contents (Elt F) → (⟨S32768x128, .f32⟩ : BufTy).Contents (Elt F) → (⟨S4096x128, .f32⟩ : BufTy).Contents (Elt F)),
    binary main_v2 main_v0 main_v3 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v3 main_arg2 main_v4 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    TRef.nullary main_call2.cst (constant S_ .f32 0x00000000#32),
    TRef.unary main_call2.cst main_call2.v0 (broadcastInDim S4096x128 ![] bcast_S_S4096x128),
    TRef.binary (.of main_v4) main_call2.v0 main_call2.v1 maximumf ]

/-- The first row take's 23 operations (by the first index vector, into `main_v0`). -/
abbrev ops0 : List (HloOp τ sig (Elt F)) :=
  [ TRef.nullary main_call0.c (constantI S_ 32 0#32),
    TRef.unary main_call0.c main_call0.v0 (broadcastInDim S4096 ![] bcast_S_S4096),
    TRef.binary (.of main_arg3) main_call0.v0 main_call0.v1 (cmpi .slt),
    TRef.nullary main_call0.c_0 (constantI S_ 32 36864#32),
    TRef.unary main_call0.c_0 main_call0.v2 (broadcastInDim S4096 ![] bcast_S_S4096),
    TRef.binary (.of main_arg3) main_call0.v2 main_call0.v3 addi,
    TRef.ternary main_call0.v1 main_call0.v3 (.of main_arg3) main_call0.call0.v0 select,
    TRef.unary main_call0.call0.v0 main_call0.v5 (broadcastInDim S4096x1 ![0] bcast_S4096_S4096x1_0),
    TRef.nullary main_call0.c_1 (constantI S1 32 36863#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S36864x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select ]

/-- The second row take's 23 operations (by the second index vector, into `main_v1`). -/
abbrev ops1 : List (HloOp τ sig (Elt F)) :=
  [ TRef.nullary main_call1.c (constantI S_ 32 0#32),
    TRef.unary main_call1.c main_call1.v0 (broadcastInDim S32768 ![] bcast_S_S32768),
    TRef.binary (.of main_arg4) main_call1.v0 main_call1.v1 (cmpi .slt),
    TRef.nullary main_call1.c_0 (constantI S_ 32 36864#32),
    TRef.unary main_call1.c_0 main_call1.v2 (broadcastInDim S32768 ![] bcast_S_S32768),
    TRef.binary (.of main_arg4) main_call1.v2 main_call1.v3 addi,
    TRef.ternary main_call1.v1 main_call1.v3 (.of main_arg4) main_call1.call0.v0 select,
    TRef.unary main_call1.call0.v0 main_call1.v5 (broadcastInDim S32768x1 ![0] bcast_S32768_S32768x1_0),
    TRef.nullary main_call1.c_1 (constantI S1 32 36863#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg0) main_call1.v5 main_call1.v13 (fun x i => Host.gather gather_S36864x128_S32768x1_S32768x128_1_0_n_n_0_1_1128 x i),
    TRef.unary main_call1.v12 main_call1.v14 (broadcastInDim S32768x128 ![0] bcast_S32768_S32768x128_0),
    TRef.nullary main_call1.cst (constant S_ .f32 0x7FC00000#32),
    TRef.unary main_call1.cst main_call1.v15 (broadcastInDim S32768x128 ![] bcast_S_S32768x128),
    TRef.ternary main_call1.v14 main_call1.v13 main_call1.v15 main_call1.v16 select ]

/-- The six operations after the takes: the aggregation product, the concatenation, the second product, the zero
    splat and the maximum with it. -/
abbrev opsT : List (HloOp τ sig (Elt F)) :=
  [ binary main_arg1 main_v1 main_v2 ((fun l r => Host.dotGeneral dot_S4096x32768_S32768x128_S4096x128_1_0_0_1_n_n none l r) : (⟨S4096x32768, .f32⟩ : BufTy).Contents (Elt F) → (⟨S32768x128, .f32⟩ : BufTy).Contents (Elt F) → (⟨S4096x128, .f32⟩ : BufTy).Contents (Elt F)),
    binary main_v2 main_v0 main_v3 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v3 main_arg2 main_v4 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    TRef.nullary main_call2.cst (constant S_ .f32 0x00000000#32),
    TRef.unary main_call2.cst main_call2.v0 (broadcastInDim S4096x128 ![] bcast_S_S4096x128),
    TRef.binary (.of main_v4) main_call2.v0 main_call2.v1 maximumf ]

/-- @main's operations are those three stretches in order. -/
theorem ops_split : (ops : List (HloOp τ sig (Elt F))) = ops0 ++ (ops1 ++ opsT) := rfl

set_option maxRecDepth 2048 in
/-- @main is that straight line: the called functions unfolded at their calls, the sequencing re-associated. -/
theorem main_eq (c : Dev nD) : main (F := F) c = seq ops := by
  simp only [main, fn_take.body, fn_take_0.body, fn_where.body, fn_where_1.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., nullary_bufs_sub .., unary_bufs_sub .., binary_bufs_sub ..⟩

/-- Every weakly fair execution of @main terminates, each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as one term of its arguments, and that term index by index: the row takes carried as they
  are, the aggregation product a sum over the 32768 source rows, the two blocks side by side against `w`, clamped
  below at zero — the function `Spec.G`. The fold of the 52 operations is read stretch by stretch: each row take
  leaves its result at `Spec.takeRows` of the table and its index vector and touches nothing else that is read
  later, and the last six operations compose the result of what the takes left.
-/
import proofs.«124088_j60103772340411_1_alg».proof.Proof.RefRun
import proofs.«124088_j60103772340411_1_alg».proof.Proof.SpecLaws
import Idealize.ShloMosaic.Lib.Pipeline.Frame

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

variable {F : FTy → Type} [FloatOps F]

/-- What the last six operations compute of `dif`, the two takes and `w`. -/
def tailTerm (dif : FVec F S4096x32768 .f32) (src : FVec F S32768x128 .f32) (dst : FVec F S4096x128 .f32)
    (w : FVec F S256x128 .f32) : FVec F S4096x128 .f32 :=
  maximumf
    (Host.dotGeneral dot_S4096x256_S256x128_S4096x128_1_0_0_1_n_n none
      (concatenate S4096x256 1
        [⟨S4096x128, Host.dotGeneral dot_S4096x32768_S32768x128_S4096x128_1_0_0_1_n_n none dif src⟩, ⟨S4096x128, dst⟩]
        concatenates_S4096x128_S4096x128_S4096x256_d1) w)
    (broadcastInDim S4096x128 ![] bcast_S_S4096x128 (constant S_ .f32 0x00000000#32))

/-- What the reference computes, of the table `x`, of `dif`, `w` and the two index vectors. -/
def refTerm (x : FVec F S36864x128 .f32) (dif : FVec F S4096x32768 .f32) (w : FVec F S256x128 .f32)
    (i3 : IVec S4096 32) (i4 : IVec S32768 32) : FVec F S4096x128 .f32 :=
  tailTerm dif (Cert.Spec.takeRows Cert.Spec.take32768 x i4) (Cert.Spec.takeRows Cert.Spec.take4096 x i3) w

/-- The fold over @main's operations is the fold over the three stretches in turn. -/
theorem after_ops (V : Valuation τ sig (Elt F)) : after ops V = after opsT (after ops1 (after ops0 V)) := by
  rw [ops_split, StableHlo.after_append, StableHlo.after_append]

/-! ## What each stretch writes -/

attribute [local irreducible] Host.reduce Host.gather in
set_option maxRecDepth 8192 in
set_option maxHeartbeats 1000000 in
/-- The first take leaves the rows named by the first index vector. -/
theorem take0_eq (V : Valuation τ sig (Elt F)) :
    after ops0 V (Proc.devRef .tc main_v0) = Cert.Spec.takeRows Cert.Spec.take4096 (V (Proc.devRef .tc main_arg0)) (V (Proc.devRef .tc main_arg3)) := by
  after_results
  rfl

attribute [local irreducible] Host.reduce Host.gather in
set_option maxRecDepth 8192 in
set_option maxHeartbeats 1000000 in
/-- The second take leaves the rows named by the second index vector. -/
theorem take1_eq (V : Valuation τ sig (Elt F)) :
    after ops1 V (Proc.devRef .tc main_v1) = Cert.Spec.takeRows Cert.Spec.take32768 (V (Proc.devRef .tc main_arg0)) (V (Proc.devRef .tc main_arg4)) := by
  after_results
  rfl

/-- The last six operations leave `tailTerm` of what they find. -/
theorem tail_eq (V : Valuation τ sig (Elt F)) :
    after opsT V (Proc.devRef .tc main_v5)
      = tailTerm (V (Proc.devRef .tc main_arg1)) (V (Proc.devRef .tc main_v1)) (V (Proc.devRef .tc main_v0)) (V (Proc.devRef .tc main_arg2)) := by
  after_results
  rfl

/-! ## What each stretch leaves alone -/

theorem keep0_arg0 (V : Valuation τ sig (Elt F)) : after ops0 V (Proc.devRef .tc main_arg0) = V (Proc.devRef .tc main_arg0) := by
  after_results
theorem keep0_arg1 (V : Valuation τ sig (Elt F)) : after ops0 V (Proc.devRef .tc main_arg1) = V (Proc.devRef .tc main_arg1) := by
  after_results
theorem keep0_arg2 (V : Valuation τ sig (Elt F)) : after ops0 V (Proc.devRef .tc main_arg2) = V (Proc.devRef .tc main_arg2) := by
  after_results
theorem keep0_arg3 (V : Valuation τ sig (Elt F)) : after ops0 V (Proc.devRef .tc main_arg3) = V (Proc.devRef .tc main_arg3) := by
  after_results
theorem keep0_arg4 (V : Valuation τ sig (Elt F)) : after ops0 V (Proc.devRef .tc main_arg4) = V (Proc.devRef .tc main_arg4) := by
  after_results

theorem keep1_v0 (V : Valuation τ sig (Elt F)) : after ops1 V (Proc.devRef .tc main_v0) = V (Proc.devRef .tc main_v0) := by
  after_results
theorem keep1_arg0 (V : Valuation τ sig (Elt F)) : after ops1 V (Proc.devRef .tc main_arg0) = V (Proc.devRef .tc main_arg0) := by
  after_results
theorem keep1_arg1 (V : Valuation τ sig (Elt F)) : after ops1 V (Proc.devRef .tc main_arg1) = V (Proc.devRef .tc main_arg1) := by
  after_results
theorem keep1_arg2 (V : Valuation τ sig (Elt F)) : after ops1 V (Proc.devRef .tc main_arg2) = V (Proc.devRef .tc main_arg2) := by
  after_results
theorem keep1_arg3 (V : Valuation τ sig (Elt F)) : after ops1 V (Proc.devRef .tc main_arg3) = V (Proc.devRef .tc main_arg3) := by
  after_results
theorem keep1_arg4 (V : Valuation τ sig (Elt F)) : after ops1 V (Proc.devRef .tc main_arg4) = V (Proc.devRef .tc main_arg4) := by
  after_results

theorem keepT_arg0 (V : Valuation τ sig (Elt F)) : after opsT V (Proc.devRef .tc main_arg0) = V (Proc.devRef .tc main_arg0) := by
  after_results
theorem keepT_arg1 (V : Valuation τ sig (Elt F)) : after opsT V (Proc.devRef .tc main_arg1) = V (Proc.devRef .tc main_arg1) := by
  after_results
theorem keepT_arg2 (V : Valuation τ sig (Elt F)) : after opsT V (Proc.devRef .tc main_arg2) = V (Proc.devRef .tc main_arg2) := by
  after_results
theorem keepT_arg3 (V : Valuation τ sig (Elt F)) : after opsT V (Proc.devRef .tc main_arg3) = V (Proc.devRef .tc main_arg3) := by
  after_results
theorem keepT_arg4 (V : Valuation τ sig (Elt F)) : after opsT V (Proc.devRef .tc main_arg4) = V (Proc.devRef .tc main_arg4) := by
  after_results

/-! ## The whole fold -/

/-- The fold of the 52 operations at the result buffer is `refTerm` of the arguments. -/
theorem out_eq (V : Valuation τ sig (Elt F)) :
    after ops V (Proc.devRef .tc main_v5)
      = refTerm (V (Proc.devRef .tc main_arg0)) (V (Proc.devRef .tc main_arg1)) (V (Proc.devRef .tc main_arg2)) (V (Proc.devRef .tc main_arg3)) (V (Proc.devRef .tc main_arg4)) := by
  rw [after_ops, tail_eq, keep1_arg1, keep0_arg1, take1_eq, keep0_arg0, keep0_arg4, keep1_v0, take0_eq, keep1_arg2, keep0_arg2]
  rfl

theorem arg0_eq (V : Valuation τ sig (Elt F)) : after ops V (Proc.devRef .tc main_arg0) = V (Proc.devRef .tc main_arg0) := by
  rw [after_ops, keepT_arg0, keep1_arg0, keep0_arg0]

theorem arg1_eq (V : Valuation τ sig (Elt F)) : after ops V (Proc.devRef .tc main_arg1) = V (Proc.devRef .tc main_arg1) := by
  rw [after_ops, keepT_arg1, keep1_arg1, keep0_arg1]

theorem arg2_eq (V : Valuation τ sig (Elt F)) : after ops V (Proc.devRef .tc main_arg2) = V (Proc.devRef .tc main_arg2) := by
  rw [after_ops, keepT_arg2, keep1_arg2, keep0_arg2]

theorem arg3_eq (V : Valuation τ sig (Elt F)) : after ops V (Proc.devRef .tc main_arg3) = V (Proc.devRef .tc main_arg3) := by
  rw [after_ops, keepT_arg3, keep1_arg3, keep0_arg3]

theorem arg4_eq (V : Valuation τ sig (Elt F)) : after ops V (Proc.devRef .tc main_arg4) = V (Proc.devRef .tc main_arg4) := by
  rw [after_ops, keepT_arg4, keep1_arg4, keep0_arg4]

/-- Every weakly fair execution of the reference ends with the result at `refTerm` of the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = refTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v5).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

/-- At the extended reals that term is `Spec.G`, index by index. -/
theorem refTerm_eq_G (x : FVec Ideal S36864x128 .f32) (dif : FVec Ideal S4096x32768 .f32) (w : FVec Ideal S256x128 .f32)
    (i3 : IVec S4096 32) (i4 : IVec S32768 32) :
    refTerm x dif w i3 i4
      = Cert.Spec.G dif (Cert.Spec.takeRows Cert.Spec.take32768 x i4) (Cert.Spec.takeRows Cert.Spec.take4096 x i3) w := by
  funext i
  obtain ⟨r, c, rfl⟩ : ∃ (r : Fin 4096) (c : Fin 128), i = ix2 r c := ⟨i 0, i 1, eq_ix2 i⟩
  rw [Cert.Spec.G_apply]
  unfold refTerm tailTerm
  rw [Cert.Spec.epilogue_nat dot_S4096x256_S256x128_S4096x128_1_0_0_1_n_n rfl]
  unfold Cert.Spec.Gat
  refine congrArg₂ max (Finset.sum_congr rfl fun j _ => congrArg (· * _) ?_) ?_
  · unfold Cert.Spec.cat
    by_cases hj : j.val < 128
    · rw [if_pos hj, if_pos hj, Cert.Spec.nat2_of_lt _ _ _ r.isLt hj, Cert.Spec.dot_nat dot_S4096x32768_S32768x128_S4096x128_1_0_0_1_n_n rfl]
      rfl
    · rw [if_neg hj, if_neg hj]
  · rw [Cert.LibLayout.broadcastInDim_scalar_apply]
    rfl

end Cert.ReferenceIdeal.RefValue

end
-- ==== Proof.lean ====
/-
  The certificate of the aggregation kernel against its reference.

  The kernel takes rows of a feature table by two index vectors on the host, then in one region of an 8 × 8 grid
  accumulates `dif · src` over eight [512, 4096] × [4096, 128] block products per row block, and at the last
  point of a row block multiplies the accumulator set beside the block of `dst` by `w` and clamps at zero. The
  reference does the same row takes, one [4096, 32768] × [32768, 128] product, the concatenation, the second
  product and the maximum with zero. At the extended reals a change of float format is the identity, a product
  into a zero accumulator is the plain sum, and the sum over 32768 source rows is the sum of its eight blocks of
  4096 (commutativity and associativity of the extended reals' sum, and 0 + x = x: no finiteness is used), so both
  end at the one function `Spec.G` of `dif`, the two row takes and `w`.

  The frames of the kernel and of its idealization are the generated ones; the reference's is its run with the
  result dropped; the ideal pass rewrote nothing, so `preserves` is `True`.
-/
import proofs.«124088_j60103772340411_1_alg».proof.Defs
import proofs.«124088_j60103772340411_1_alg».proof.Proof.Gen.Kernel
import proofs.«124088_j60103772340411_1_alg».proof.Proof.Gen.Kernel.Skeleton
import proofs.«124088_j60103772340411_1_alg».proof.Proof.Gen.Kernel.Launch
import proofs.«124088_j60103772340411_1_alg».proof.Proof.Gen.Kernel.Points
import proofs.«124088_j60103772340411_1_alg».proof.Proof.Gen.Kernel.Frame
import proofs.«124088_j60103772340411_1_alg».proof.Proof.Gen.KernelIdeal
import proofs.«124088_j60103772340411_1_alg».proof.Proof.Gen.KernelIdeal.Skeleton
import proofs.«124088_j60103772340411_1_alg».proof.Proof.Gen.KernelIdeal.Launch
import proofs.«124088_j60103772340411_1_alg».proof.Proof.Gen.KernelIdeal.Points
import proofs.«124088_j60103772340411_1_alg».proof.Proof.Gen.KernelIdeal.Frame
import proofs.«124088_j60103772340411_1_alg».proof.Proof.Gen.ReferenceIdeal
import proofs.«124088_j60103772340411_1_alg».proof.Proof.Gen.Pre_finite_inputs
import proofs.«124088_j60103772340411_1_alg».proof.Proof.Gen.KernelIdeal.Value
import proofs.«124088_j60103772340411_1_alg».proof.Proof.KernelValue
import proofs.«124088_j60103772340411_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both runs end at `Spec.G` of the launch contents: the kernel's by the accumulation over the row block's eight
    points and the tiling of the result by the write-backs, the reference's index by index; the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refTerm_eq_G, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
